-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S64x2048 : Shape := ⟨2, ![64, 2048]⟩
abbrev S64 : Shape := ⟨1, ![64]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x4096x2048 .f32) (main_arg1 : FVec F S64x2048 .f32) (main_arg2 : FVec F S64 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x4096x2048 : Shape := ⟨3, ![4, 4096, 2048]⟩
abbrev S64x2048 : Shape := ⟨2, ![64, 2048]⟩
abbrev S64 : Shape := ⟨1, ![64]⟩
abbrev S4x64x4096 : Shape := ⟨3, ![4, 64, 4096]⟩
abbrev S1x1024x2048 : Shape := ⟨3, ![1, 1024, 2048]⟩
abbrev S1x64x2048 : Shape := ⟨3, ![1, 64, 2048]⟩
abbrev S64x1 : Shape := ⟨2, ![64, 1]⟩
abbrev S1024x2048 : Shape := ⟨2, ![1024, 2048]⟩
abbrev S64x1024 : Shape := ⟨2, ![64, 1024]⟩
abbrev S1x64x1024 : Shape := ⟨3, ![1, 64, 1024]⟩
abbrev S4x4096x64 : Shape := ⟨3, ![4, 4096, 64]⟩

abbrev nBuf : Space → Nat
  | .hbm => 5
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S64, .f32⟩
  | .hbm, ⟨3, _⟩ => ⟨S4x64x4096, .f32⟩
  | .hbm, ⟨4, _⟩ => ⟨S4x4096x64, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S64x2048, .f32⟩
  | .local _ .vmem, ⟨5, _⟩ => ⟨S64, .f32⟩
  | .local _ .vmem, ⟨6, _⟩ => ⟨S1x64x2048, .f32⟩
  | .local _ .vmem, ⟨7, _⟩ => ⟨S1x64x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![arg0.toNat, v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S64x2048_S64x2048_0_0 : ∀ a, (![0, 0] : Fin 2 → Nat) a + S64x2048.size a ≤ S64x2048.size a
  h_S64x2048 : 0 < S64x2048.numel
  inb_S64_S64_0 : ∀ a, (![0] : Fin 1 → Nat) a + S64.size a ≤ S64.size a
  h_S64 : 0 < S64.numel
  shapeCasts_S64_S64x1 : S64.ShapeCasts S64x1
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  broadcasts_S64x1_S64x1024 : S64x1.Broadcasts S64x1024
  inb_S1x64x2048_S1x64x1024_0_0_0 : ∀ a, (![0, 0, 0] : Fin 3 → Nat) a + S1x64x1024.size a ≤ S1x64x2048.size a
  h_S1x64x1024 : 0 < S1x64x1024.numel
  shapeCasts_S1x64x1024_S64x1024 : S1x64x1024.ShapeCasts S64x1024
  shapeCasts_S64x1024_S1x64x1024 : S64x1024.ShapeCasts S1x64x1024
  inb_S1x64x2048_S1x64x1024_0_0_1024 : ∀ a, (![0, 0, 1024] : Fin 3 → Nat) a + S1x64x1024.size a ≤ S1x64x2048.size a
  transposes_S4x64x4096_S4x4096x64_0_2_1 : S4x64x4096.Transposes [0, 2, 1] S4x4096x64
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S4x4096x2048.size a
  hwx0_0 : ∀ i : grid0.Coords, EltTy.bits .f32 = 32 ∨ (Rect.block (s := S4x4096x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S4x4096x2048.size a
  hwx0_1 : ∀ i : grid0.Coords, EltTy.bits .f32 = 32 ∨ (Rect.block (s := S4x4096x2048) S1x1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .f32 = 32 ∨ (Rect.block (s := S64x2048) S64x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x2048.size a ≤ S4x64x4096.size a
  hwx0_4 : ∀ i : grid0.Coords, EltTy.bits .f32 = 32 ∨ (Rect.block (s := S4x64x4096) S1x64x2048.size (cc0_transform_4 i) (hinb0_4 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S64x2048 : Shape := ⟨2, ![64, 2048]⟩
abbrev S64 : Shape := ⟨1, ![64]⟩
abbrev S4x4096x64 : Shape := ⟨3, ![4, 4096, 64]⟩
abbrev S1x1x64 : Shape := ⟨3, ![1, 1, 64]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S64x2048, .f32⟩
  | .hbm, ⟨2, _⟩ => ⟨S64, .f32⟩
  | .hbm, ⟨3, _⟩ => ⟨S4x4096x64, .f32⟩
  | .hbm, ⟨4, _⟩ => ⟨S1x1x64, .f32⟩
  | .hbm, ⟨5, _⟩ => ⟨S4x4096x64, .f32⟩
  | .hbm, ⟨6, _⟩ => ⟨S4x4096x64, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  dot_S4x4096x2048_S64x2048_S4x4096x64_2_1_01_0_n_n_wf : DotDims.WF S4x4096x2048 S64x2048 S4x4096x64 [2] [1] [0, 1] [0] [] []

variable [Facts₀]

def dot_S4x4096x2048_S64x2048_S4x4096x64_2_1_01_0_n_n : DotDims S4x4096x2048 S64x2048 S4x4096x64 where
  lhsContracting := [2]
  rhsContracting := [1]
  lhsNonContracting := [0, 1]
  rhsNonContracting := [0]
  lhsBatch := []
  rhsBatch := []
  wf := dot_S4x4096x2048_S64x2048_S4x4096x64_2_1_01_0_n_n_wf

class Facts : Prop extends Facts₀ where

variable [Facts]
-- ==== Proof.K.Body.lean ====
/-
  The kernel body of the router gate, run once on symbolic staging buffers.

  At a grid point the body is handed two row blocks of the activations `x` (rows [2j·1024, (2j+1)·1024) and
  [(2j+1)·1024, (2j+2)·1024) of batch entry i: the same array through two windows), the whole weight matrix
  `W` [64, 2048] and the bias `b` [64]. It stores the left half [1, 64, 0:1024] of its output block
  [1, 64, 2048] with `W · xaᵀ + b` and the right half [1, 64, 1024:2048] with `W · xbᵀ + b`. The two
  stores tile the output block, so whatever the block held before (the body also loads the block's two halves
  before it overwrites them; the loaded values are never used) it ends at `outBlk`: the canonical contents of
  the two pieces, each a pure function of the blocks the body loaded.
-/
import proofs.«143645_g40827959116453_cont_8to1_b_939_14_alg».proof.Proof.Gen.Kernel.Launch
import proofs.«143645_g40827959116453_cont_8to1_b_939_14_alg».proof.Proof.Gen.Kernel.Skeleton
import proofs.«143645_g40827959116453_cont_8to1_b_939_14_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- The whole weight matrix. -/
abbrev rW : Rect S64x2048 := Rect.unit (s := S64x2048) ![0, 0] S64x2048.size inb_S64x2048_S64x2048_0_0
/-- The whole bias vector. -/
abbrev rB : Rect S64 := Rect.unit (s := S64) ![0] S64.size inb_S64_S64_0
/-- A whole row block of the activations. -/
abbrev rX : Rect S1x1024x2048 := Rect.unit (s := S1x1024x2048) ![0, 0, 0] S1x1024x2048.size inb_S1x1024x2048_S1x1024x2048_0_0_0
/-- The left half of the output block: columns [0, 1024). -/
abbrev rLo : Rect S1x64x2048 := Rect.unit (s := S1x64x2048) ![0, 0, 0] S1x64x1024.size inb_S1x64x2048_S1x64x1024_0_0_0
/-- The right half of the output block: columns [1024, 2048). -/
abbrev rHi : Rect S1x64x2048 := Rect.unit (s := S1x64x2048) ![0, 0, 1024] S1x64x1024.size inb_S1x64x2048_S1x64x1024_0_0_1024

/-! ## What the body leaves in the output block -/

/-- The output block after the body, from the blocks it loaded: the right half (stored last) over the left
    half, each half the product of `W` with one row block of `x`, plus the bias along the rows. -/
def outBlk (xa xb : Vec F S1x1024x2048 .f32) (w : Vec F S64x2048 .f32) (b : Vec F S64 .f32) : Vec F S1x64x2048 .f32 :=
  View.canon [⟨rHi, k0_pay3 (View.ld w rW) (View.ld b rB) (View.ld xb rX)⟩,
              ⟨rLo, k0_pay2 (View.ld w rW) (View.ld b rB) (View.ld xa rX)⟩]

/-- The two halves tile the output block, so every index of the block lies in one of them. -/
theorem cover_out (p1 p0 : Vec F S1x64x1024 .f32) (y : S1x64x2048.Idx) :
    ∃ pc ∈ ([⟨rHi, p1⟩, ⟨rLo, p0⟩] : List (View.Piece (Elt F) S1x64x2048 .f32)), y ∈ pc.1.set :=
  View.cover_of_tiled [⟨rHi, p1⟩, ⟨rLo, p0⟩] S1x64x1024.size (by rfl) y

/-! ## The body's triple -/

set_option maxHeartbeats 1000000 in
/-- The body on whole staging buffers — the four inputs at contents read as `xa`, `xb`, `w`, `b`, the output at
    anything — runs to its end with the inputs as they were and the output block at `outBlk xa xb w b`. -/
theorem sound_kernel (c : Dev nD) (E : Set ℕ) (i : grid0.Coords)
    (arg2 : Memref sig .tc .vmem S1x1024x2048 .f32) (harg2 : arg2.IsWhole)
    (arg3 : Memref sig .tc .vmem S1x1024x2048 .f32) (harg3 : arg3.IsWhole)
    (arg4 : Memref sig .tc .vmem S64x2048 .f32) (harg4 : arg4.IsWhole)
    (arg5 : Memref sig .tc .vmem S64 .f32) (harg5 : arg5.IsWhole)
    (arg6 : Memref sig .tc .vmem S1x64x2048 .f32) (harg6 : arg6.IsWhole)
    (xa xb : Vec F S1x1024x2048 .f32) (w : Vec F S64x2048 .f32) (b : Vec F S64 .f32) (K : PUnit → sProp 𝕄) :
    iprop(owns (c : Thread nD τ) arg2 fullShare xa ∗ owns (c : Thread nD τ) arg3 fullShare xb
        ∗ owns (c : Thread nD τ) arg4 fullShare w ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare w ∗ owns (c : Thread nD τ) arg5 fullShare b
            ∗ owns (c : Thread nD τ) arg6 fullShare (outBlk xa xb w b)) -∗ K ⟨⟩))
      ⊢ wp frame (wpE (defs₀ (F := F)) Variants.none c none) E
          (cc0__router_body i arg2 harg2 arg3 harg3 arg4 harg4 arg5 harg5 arg6 harg6) K := by
  simp only [cc0__router_body_eq_skeleton]; unfold cc0__router_body_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _ _)

end Cert.Kernel.Frame

end
-- ==== Proof.K.Data.lean ====
/-
  The proof data of the router gate's one pipeline, and its body obligation.

  The region finds the argument arrays as launched (nothing runs before it). At grid point t = (i, j):
  window 0 holds rows [2j·1024, (2j+1)·1024) of x[i], window 1 rows [(2j+1)·1024, (2j+2)·1024) of x[i] — two
  windows on ONE array, so the array's full share is dealt between them, the left half to window 0 and the
  right half to window 1 (both only read) —, window 2 the whole of W, window 3 the whole of b, and the output
  window's block is left at `outBlk` of those four blocks. The body keeps nothing else from point to point.
-/
import proofs.«143645_g40827959116453_cont_8to1_b_939_14_alg».proof.Proof.K.Body

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s TensorCore buffers when the region is entered: as launched. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (a window
    not fetched at a point has not moved: the weights and the bias are fetched once), for any proof data whose
    array is as found and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- After the body at point `t` each input's buffer holds its block still and the output's `outBlk` of the
    four input blocks; the two windows on `x` hold the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlk (iblk m c 0 t) (iblk m c 1 t) (iblk m c 2 t) (iblk m c 3 t) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d
theorem before_3 (c : Dev nD) (t : Fin cfg0.N) (d) : (dats m 0 c).before 3 t d = iblk m c 3 t :=
  before_in3_of m (dats m 0 c) (A_eq m c 3) (after_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Frame

end
-- ==== Proof.K.Launch.lean ====
/-
  The launch of the router gate: from the body obligation to the run of @main.

  @main is one kernel region followed by one host operation, the transpose [4, 64, 4096] → [4, 4096, 64] of the
  kernel's output. The kernel is handed the activations `x` through TWO windows (rows [2j·1024, (2j+1)·1024) and
  [(2j+1)·1024, (2j+2)·1024) of batch entry i at point (i, j)), so the windows' arrays are not pairwise distinct and
  the launch is taken from the library's region theorem that lets the certificate say how the buffers behind the
  arrays are dealt among the windows: `x`'s full share is split in two halves, one per window, both windows only
  reading; W, b and the output go whole to their one window. After the region the transpose reads the output array
  (held whole again: an output window holds the full share) and writes the result buffer, which bypasses the region.
-/
import proofs.«143645_g40827959116453_cont_8to1_b_939_14_alg».proof.Proof.K.Data
import Idealize.ShloMosaic.Lib.Pipeline.FrameSuffix

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then one transpose -/

/-- @main is the kernel region continued by the one host operation after it; nothing runs before the region, so it
    finds the arrays as launched. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [] [hostOps1] trivial trivial main_chain

/-! ## The arrays' shares -/

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl

/-- The pipeline's arrays at contents `A`, window by window: `x` twice, at the two halves of its share. -/
theorem arrays_eq (c : Dev nD) (A : (w : Fin cfg0.W) → Buf (Elt F) ((cfg0.win w).arr.view.loc (c.tc : Thread nD τ))) :
    ((dats m 0 c).arrays A : sProp 𝕄)
      = iprop(((c.tc : Thread nD τ).loc main_arg0 ↦{fullShare.left} A 0) ∗ ((c.tc : Thread nD τ).loc main_arg0 ↦{fullShare.right} A 1)
          ∗ ((c.tc : Thread nD τ).loc main_arg1 ↦{fullShare} A 2) ∗ ((c.tc : Thread nD τ).loc main_arg2 ↦{fullShare} A 3)
          ∗ ((c.tc : Thread nD τ).loc main_v0 ↦{fullShare} A 4)) := by
  unfold Dat.arrays
  rw [bigSep_W0, share_0, share_1, share_2, share_3, share_4]
  simp only [View.set_whole]

/-- The distinct buffers behind the windows' arrays, one by one: `x` once. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop(((c.tc : Thread nD τ).loc main_arg0 ↦{fullShare} W main_arg0) ∗ ((c.tc : Thread nD τ).loc main_arg1 ↦{fullShare} W main_arg1)
          ∗ ((c.tc : Thread nD τ).loc main_arg2 ↦{fullShare} W main_arg2) ∗ ((c.tc : Thread nD τ).loc main_v0 ↦{fullShare} W main_v0)) :=
  bigSep_eq_bigSepL_of_eq [main_arg0, main_arg1, main_arg2, main_v0] (by decide) (by decide) _

/-- At the region's entry the full share of `x` is dealt to its two windows, a half each; every other array goes
    whole to its one window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq, arrBufs_eq]
  iintro ⟨H0, H1, H2, H3⟩
  ihave H0' := (pointsTo_share (PosShare.mem_left_op_right fullShare)).1 $$ H0
  icases H0' with ⟨H0a, H0b⟩
  isplitl [H0a]; · iexact H0a
  isplitl [H0b]; · iexact H0b
  isplitl [H1]; · iexact H1
  isplitl [H2]; · iexact H2
  iexact H3

/-! ## After the region: the transpose of the kernel's result -/

/-- The program's result: the kernel's output array [4, 64, 4096] as the region leaves it, its last two axes swapped. -/
def outT (c : Dev nD) : Buf (Elt F) ((c.tc : Thread nD τ).loc main_v1) :=
  transpose S4x4096x64 [0, 2, 1] ((dats m 0 c).arrAt 4 cfg0.N) transposes_S4x64x4096_S4x4096x64_0_2_1

/-- The device's buffers when the region is left, as far as the transpose reads them: the kernel's output array at
    what the write-backs made of it, everything else as launched. -/
def Wt (c : Dev nD) : Valuation τ sig (Elt F) := fun b =>
  if h : Proc.devRef .tc main_v0 = b then
    cast (congrArg (fun b' : DevRef τ sig => b'.ty.Contents (Elt F)) h) ((dats m 0 c).arrAt 4 cfg0.N)
  else m (c, b)

theorem Wt_v0 (c : Dev nD) : Wt m c (Proc.devRef .tc main_v0) = (dats m 0 c).arrAt 4 cfg0.N := by
  unfold Wt; rw [dif_pos rfl]; rfl
theorem Wt_v1 (c : Dev nD) : Wt m c (Proc.devRef .tc main_v1) = V m c main_v1 := by
  unfold Wt; rw [dif_neg (StableHlo.devRef_ne_of_ne (by decide))]

/-- The transpose leaves the kernel's output array as it was, -/
theorem after_v0 (c : Dev nD) :
    StableHlo.after (hostOps1 (F := F)) (Wt m c) (Proc.devRef .tc main_v0) = (dats m 0 c).arrAt 4 cfg0.N := by
  simp only [hostOps1, StableHlo.after_cons, StableHlo.after_nil]
  rw [StableHlo.unary_result_ne main_v0 main_v1 _ _ _ (Wt m c) (r := main_v0) (by decide), Wt_v0]
/-- and writes the program's result. -/
theorem after_v1 (c : Dev nD) :
    StableHlo.after (hostOps1 (F := F)) (Wt m c) (Proc.devRef .tc main_v1) = outT m c := by
  simp only [hostOps1, StableHlo.after_cons, StableHlo.after_nil]
  rw [StableHlo.unary_result main_v0 main_v1 _ _ _ (Wt m c), Wt_v0]; rfl

/-- The two buffers the transpose touches, held whole. -/
theorem held_pair (c : Dev nD) (W : Valuation τ sig (Elt F)) :
    (StableHlo.held (c.tc : Thread nD τ) {Proc.devRef .tc main_v0, Proc.devRef .tc main_v1} W : sProp 𝕄)
      = iprop(((c.tc : Thread nD τ).loc main_v0 ↦{fullShare} W (Proc.devRef .tc main_v0))
          ∗ ((c.tc : Thread nD τ).loc main_v1 ↦{fullShare} W (Proc.devRef .tc main_v1))) := by
  unfold StableHlo.held
  rw [bigSep_insert (by rw [Finset.mem_singleton]; exact StableHlo.devRef_ne_of_ne (by decide)), bigSep_singleton]
  rfl

/-- The line after the region, from the region's exit: holding the kernel's output array whole (an output window's
    array is held at the full share) and the result buffer, the transpose runs and hands both back, the result
    buffer at the transposed array. The two halves of `x` and the other inputs pass by untouched. -/
theorem htail (c : Dev nD) (Q' : PUnit → sProp 𝕄) :
    iprop((iprop((dats m 0 c).arrays ((dats m 0 c).arrAt · cfg0.N) ∗ ((c.tc : Thread nD τ).loc main_v1 ↦{fullShare} outT m c)) -∗ Q' ⟨⟩)
        ∗ boundary (c.tc : Thread nD τ) ∗ (dats m 0 c).arrays ((dats m 0 c).arrAt · cfg0.N)
        ∗ ((c.tc : Thread nD τ).loc main_v1 ↦{fullShare} V m c main_v1))
      ⊢ wp frame (wpE (defs (F := F)) (Variants.lift Variants.none) (c.tc : Thread nD τ) none) Set.univ
          (Pipeline.chain [StableHlo.seq hostOps1]) Q' := by
  rw [arrays_eq]
  have hsub : ∀ op ∈ (hostOps1 : List (HloOp τ sig (Elt F))),
      op.bufs ⊆ ({Proc.devRef .tc main_v0, Proc.devRef .tc main_v1} : Finset (DevRef τ sig)) := by
    intro op hop; rw [List.mem_singleton] at hop; subst hop; exact subset_rfl
  have hfresh : ∀ op ∈ (hostOps1 : List (HloOp τ sig (Elt F))), op.fresh = ∅ := by
    intro op hop; rw [List.mem_singleton] at hop; subst hop; rfl
  have key := StableHlo.wp_seq (defs := defs (F := F)) (Variants.lift Variants.none) none Set.univ c
    ({Proc.devRef .tc main_v0, Proc.devRef .tc main_v1} : Finset (DevRef τ sig))
    (fun _ => Pipeline.chain []) (K := Q') hostOps1 hsub hfresh (Wt m c)
  rw [held_pair, held_pair, after_v0, after_v1, Wt_v0, Wt_v1] at key
  iintro ⟨HQ, Hb, ⟨H0, H1, H2, H3, H4⟩, HZ⟩
  rw [Pipeline.chain_cons]
  iapply key $$ [Hb H4 HZ]
  · isplitl [Hb]; · iexact Hb
    isplitl [H4]; · iexact H4
    iexact HZ
  iintro ⟨Hb, H4, HZ⟩
  rw [Pipeline.chain_nil, show (pure PUnit.unit : Prog (TpuEff nD τ sig (Elt F) _ .tc) PUnit) = .ret ⟨⟩ from rfl, wp_ret]
  imodintro
  iapply HQ
  isplitr [HZ]
  · isplitl [H0]; · iexact H0
    isplitl [H1]; · iexact H1
    isplitl [H2]; · iexact H2
    isplitl [H3]; · iexact H3
    iexact H4
  iexact HZ

/-! ## The run -/

set_option backward.isDefEq.respectTransparency.types false in
/-- From any memory with zero counters every weakly fair execution of @main terminates, faulting nowhere, with every
    array of the pipeline at what the write-backs leave of it (an input array: as launched) and the result buffer at
    the transposed output array. The launch hands the region `x`'s buffer once; the two windows on it get a half
    share each (`hsplit`). -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ r.2.mem ((c.tc : Thread nD τ).loc main_v1) = outT m c) :=
  Pipeline.θ_run_region_pf_tail (fun p => (cfgs p).toPCfg) (fun p => (cfgs p).toPCfg_adm) (dats m) () cellOf_inj (0 : Fin 1) winFacts₀0
    (Pipeline.OwnSemFacts.none spec0) (Pipeline.PreFacts.none _) emb₁ defs₀ Variants.none m ρ main
    (fun _ => Pipeline.chain [StableHlo.seq hostOps1])
    (fun c => (body_obligation m c).loose) block_pos0 arr_whole0 stage_whole0 (fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m) (hsplit := hsplit m) (hpf := fun _ k => k.elim0)
    (X := fun c => iprop(∃ r, prngReg c r)) (Y := fun c => iprop(∃ r, prngReg c r))
    (Z := fun c => iprop((c.tc : Thread nD τ).loc main_v1 ↦{fullShare} V m c main_v1))
    (Z' := fun c => iprop((c.tc : Thread nD τ).loc main_v1 ↦{fullShare} outT m c))
    (hX := fun c => by
      rw [Pipeline.unscopedRestP_none, unscopedRest0_eq]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => s.mem ((c.tc : Thread nD τ).loc main_v1) = outT m c)
    (hY := fun c s' => by
      iintro ⟨-, HU, HSI⟩
      icombine HSI HU gives %h
      imodintro
      isplitr; · ipureintro; exact Buf.eq_of_forall_mem_univ h
      iexact HSI)
    (hQ := fun s h c => ⟨(h c).1, (h c).2.2⟩)

/-- THE FRAME, at any `F`: @main runs to its end and its three argument arrays end as launched — an input window's
    array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans (A_eq m c 0)),
     ((h c).1 2).trans (((dats m 0 c).arrAt_in 2 rfl _).trans (A_eq m c 2)),
     ((h c).1 3).trans (((dats m 0 c).arrAt_in 3 rfl _).trans (A_eq m c 3))⟩) (run_main m ρ)

/-- The run, read for a value claim: the result buffer at the transposed output array, the arguments as launched. -/
theorem run_result : θ_run defs (onTc (τ := τ) (main (F := F))) ⟨m, fun _ => 0, ρ⟩ (fun r => ∀ c : Dev nD,
      r.2.mem ((c.tc : Thread nD τ).loc main_v1) = outT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2,
     ((h c).1 0).trans (((dats m 0 c).arrAt_in 0 rfl _).trans (A_eq m c 0)),
     ((h c).1 2).trans (((dats m 0 c).arrAt_in 2 rfl _).trans (A_eq m c 2)),
     ((h c).1 3).trans (((dats m 0 c).arrAt_in 3 rfl _).trans (A_eq m c 3))⟩) (run_main m ρ)

end Cert.Kernel.Frame

end
-- ==== Proof.KI.Body.lean ====
/-
  The kernel body of the router gate, run once on symbolic staging buffers.

  At a grid point the body is handed two row blocks of the activations `x` (rows [2j·1024, (2j+1)·1024) and
  [(2j+1)·1024, (2j+2)·1024) of batch entry i: the same array through two windows), the whole weight matrix
  `W` [64, 2048] and the bias `b` [64]. It stores the left half [1, 64, 0:1024] of its output block
  [1, 64, 2048] with `W · xaᵀ + b` and the right half [1, 64, 1024:2048] with `W · xbᵀ + b`. The two
  stores tile the output block, so whatever the block held before (the body also loads the block's two halves
  before it overwrites them; the loaded values are never used) it ends at `outBlk`: the canonical contents of
  the two pieces, each a pure function of the blocks the body loaded.
-/
import proofs.«143645_g40827959116453_cont_8to1_b_939_14_alg».proof.Proof.Gen.KernelIdeal.Launch
import proofs.«143645_g40827959116453_cont_8to1_b_939_14_alg».proof.Proof.Gen.KernelIdeal.Skeleton
import proofs.«143645_g40827959116453_cont_8to1_b_939_14_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes through -/

/-- The whole weight matrix. -/
abbrev rW : Rect S64x2048 := Rect.unit (s := S64x2048) ![0, 0] S64x2048.size inb_S64x2048_S64x2048_0_0
/-- The whole bias vector. -/
abbrev rB : Rect S64 := Rect.unit (s := S64) ![0] S64.size inb_S64_S64_0
/-- A whole row block of the activations. -/
abbrev rX : Rect S1x1024x2048 := Rect.unit (s := S1x1024x2048) ![0, 0, 0] S1x1024x2048.size inb_S1x1024x2048_S1x1024x2048_0_0_0
/-- The left half of the output block: columns [0, 1024). -/
abbrev rLo : Rect S1x64x2048 := Rect.unit (s := S1x64x2048) ![0, 0, 0] S1x64x1024.size inb_S1x64x2048_S1x64x1024_0_0_0
/-- The right half of the output block: columns [1024, 2048). -/
abbrev rHi : Rect S1x64x2048 := Rect.unit (s := S1x64x2048) ![0, 0, 1024] S1x64x1024.size inb_S1x64x2048_S1x64x1024_0_0_1024

/-! ## What the body leaves in the output block -/

/-- The output block after the body, from the blocks it loaded: the right half (stored last) over the left
    half, each half the product of `W` with one row block of `x`, plus the bias along the rows. -/
def outBlk (xa xb : Vec F S1x1024x2048 .f32) (w : Vec F S64x2048 .f32) (b : Vec F S64 .f32) : Vec F S1x64x2048 .f32 :=
  View.canon [⟨rHi, k0_pay3 (View.ld w rW) (View.ld b rB) (View.ld xb rX)⟩,
              ⟨rLo, k0_pay2 (View.ld w rW) (View.ld b rB) (View.ld xa rX)⟩]

/-- The two halves tile the output block, so every index of the block lies in one of them. -/
theorem cover_out (p1 p0 : Vec F S1x64x1024 .f32) (y : S1x64x2048.Idx) :
    ∃ pc ∈ ([⟨rHi, p1⟩, ⟨rLo, p0⟩] : List (View.Piece (Elt F) S1x64x2048 .f32)), y ∈ pc.1.set :=
  View.cover_of_tiled [⟨rHi, p1⟩, ⟨rLo, p0⟩] S1x64x1024.size (by rfl) y

/-! ## The body's triple -/

set_option maxHeartbeats 1000000 in
/-- The body on whole staging buffers — the four inputs at contents read as `xa`, `xb`, `w`, `b`, the output at
    anything — runs to its end with the inputs as they were and the output block at `outBlk xa xb w b`. -/
theorem sound_kernel (c : Dev nD) (E : Set ℕ) (i : grid0.Coords)
    (arg2 : Memref sig .tc .vmem S1x1024x2048 .f32) (harg2 : arg2.IsWhole)
    (arg3 : Memref sig .tc .vmem S1x1024x2048 .f32) (harg3 : arg3.IsWhole)
    (arg4 : Memref sig .tc .vmem S64x2048 .f32) (harg4 : arg4.IsWhole)
    (arg5 : Memref sig .tc .vmem S64 .f32) (harg5 : arg5.IsWhole)
    (arg6 : Memref sig .tc .vmem S1x64x2048 .f32) (harg6 : arg6.IsWhole)
    (xa xb : Vec F S1x1024x2048 .f32) (w : Vec F S64x2048 .f32) (b : Vec F S64 .f32) (K : PUnit → sProp 𝕄) :
    iprop(owns (c : Thread nD τ) arg2 fullShare xa ∗ owns (c : Thread nD τ) arg3 fullShare xb
        ∗ owns (c : Thread nD τ) arg4 fullShare w ∗ owns (c : Thread nD τ) arg5 fullShare b
        ∗ (∃ d, owns (c : Thread nD τ) arg6 fullShare d)
        ∗ (iprop(owns (c : Thread nD τ) arg2 fullShare xa ∗ owns (c : Thread nD τ) arg3 fullShare xb
            ∗ owns (c : Thread nD τ) arg4 fullShare w ∗ owns (c : Thread nD τ) arg5 fullShare b
            ∗ owns (c : Thread nD τ) arg6 fullShare (outBlk xa xb w b)) -∗ K ⟨⟩))
      ⊢ wp frame (wpE (defs₀ (F := F)) Variants.none c none) E
          (cc0__router_body i arg2 harg2 arg3 harg3 arg4 harg4 arg5 harg5 arg6 harg6) K := by
  simp only [cc0__router_body_eq_skeleton]; unfold cc0__router_body_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover_out _ _)

end Cert.KernelIdeal.Frame

end
-- ==== Proof.KI.Data.lean ====
/-
  The proof data of the router gate's one pipeline, and its body obligation.

  The region finds the argument arrays as launched (nothing runs before it). At grid point t = (i, j):
  window 0 holds rows [2j·1024, (2j+1)·1024) of x[i], window 1 rows [(2j+1)·1024, (2j+2)·1024) of x[i] — two
  windows on ONE array, so the array's full share is dealt between them, the left half to window 0 and the
  right half to window 1 (both only read) —, window 2 the whole of W, window 3 the whole of b, and the output
  window's block is left at `outBlk` of those four blocks. The body keeps nothing else from point to point.
-/
import proofs.«143645_g40827959116453_cont_8to1_b_939_14_alg».proof.Proof.KI.Body

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core `c`'s TensorCore buffers when the region is entered: as launched. -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not (a window
    not fetched at a point has not moved: the weights and the bias are fetched once), for any proof data whose
    array is as found and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- After the body at point `t` each input's buffer holds its block still and the output's `outBlk` of the
    four input blocks; the two windows on `x` hold the two halves of its share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = outBlk (iblk m c 0 t) (iblk m c 1 t) (iblk m c 2 t) (iblk m c 3 t) := by dsimp only [dats]

theorem before_0 (c : Dev nD) (t : Fin cfg0.N) (d) : (dats m 0 c).before 0 t d = iblk m c 0 t :=
  before_in0_of m (dats m 0 c) (A_eq m c 0) (after_0 m c) t d
theorem before_1 (c : Dev nD) (t : Fin cfg0.N) (d) : (dats m 0 c).before 1 t d = iblk m c 1 t :=
  before_in1_of m (dats m 0 c) (A_eq m c 1) (after_1 m c) t d
theorem before_2 (c : Dev nD) (t : Fin cfg0.N) (d) : (dats m 0 c).before 2 t d = iblk m c 2 t :=
  before_in2_of m (dats m 0 c) (A_eq m c 2) (after_2 m c) t d
theorem before_3 (c : Dev nD) (t : Fin cfg0.N) (d) : (dats m 0 c).before 3 t d = iblk m c 3 t :=
  before_in3_of m (dats m 0 c) (A_eq m c 3) (after_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant
    and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Frame

end
-- ==== Proof.KI.Launch.lean ====
/-
  The launch of the router gate: from the body obligation to the run of @main.

  @main is one kernel region followed by one host operation, the transpose [4, 64, 4096] → [4, 4096, 64] of the
  kernel's output. The kernel is handed the activations `x` through TWO windows (rows [2j·1024, (2j+1)·1024) and
  [(2j+1)·1024, (2j+2)·1024) of batch entry i at point (i, j)), so the windows' arrays are not pairwise distinct and
  the launch is taken from the library's region theorem that lets the certificate say how the buffers behind the
  arrays are dealt among the windows: `x`'s full share is split in two halves, one per window, both windows only
  reading; W, b and the output go whole to their one window. After the region the transpose reads the output array
  (held whole again: an output window holds the full share) and writes the result buffer, which bypasses the region.
-/
import proofs.«143645_g40827959116453_cont_8to1_b_939_14_alg».proof.Proof.KI.Data
import Idealize.ShloMosaic.Lib.Pipeline.FrameSuffix

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region, then one transpose -/

/-- @main is the kernel region continued by the one host operation after it; nothing runs before the region, so it
    finds the arrays as launched. -/
theorem hmain : Pipeline.HMainK (Ix := Unit) (Name := ℕ) (U := UR sig nD τ) (Lvl := ℕ) cfgs 0 defs₀ Variants.none m (main (F := F)) (V m)
      (fun _ => Pipeline.chain [StableHlo.seq hostOps1]) :=
  Pipeline.hmain_around cfgs 0 defs₀ Variants.none m main [] [hostOps1] trivial trivial main_chain

/-! ## The arrays' shares -/

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl

/-- The pipeline's arrays at contents `A`, window by window: `x` twice, at the two halves of its share. -/
theorem arrays_eq (c : Dev nD) (A : (w : Fin cfg0.W) → Buf (Elt F) ((cfg0.win w).arr.view.loc (c.tc : Thread nD τ))) :
    ((dats m 0 c).arrays A : sProp 𝕄)
      = iprop(((c.tc : Thread nD τ).loc main_arg0 ↦{fullShare.left} A 0) ∗ ((c.tc : Thread nD τ).loc main_arg0 ↦{fullShare.right} A 1)
          ∗ ((c.tc : Thread nD τ).loc main_arg1 ↦{fullShare} A 2) ∗ ((c.tc : Thread nD τ).loc main_arg2 ↦{fullShare} A 3)
          ∗ ((c.tc : Thread nD τ).loc main_v0 ↦{fullShare} A 4)) := by
  unfold Dat.arrays
  rw [bigSep_W0, share_0, share_1, share_2, share_3, share_4]
  simp only [View.set_whole]

/-- The distinct buffers behind the windows' arrays, one by one: `x` once. -/
theorem arrBufs_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop(((c.tc : Thread nD τ).loc main_arg0 ↦{fullShare} W main_arg0) ∗ ((c.tc : Thread nD τ).loc main_arg1 ↦{fullShare} W main_arg1)
          ∗ ((c.tc : Thread nD τ).loc main_arg2 ↦{fullShare} W main_arg2) ∗ ((c.tc : Thread nD τ).loc main_v0 ↦{fullShare} W main_v0)) :=
  bigSep_eq_bigSepL_of_eq [main_arg0, main_arg1, main_arg2, main_v0] (by decide) (by decide) _

/-- At the region's entry the full share of `x` is dealt to its two windows, a half each; every other array goes
    whole to its one window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq, arrBufs_eq]
  iintro ⟨H0, H1, H2, H3⟩
  ihave H0' := (pointsTo_share (PosShare.mem_left_op_right fullShare)).1 $$ H0
  icases H0' with ⟨H0a, H0b⟩
  isplitl [H0a]; · iexact H0a
  isplitl [H0b]; · iexact H0b
  isplitl [H1]; · iexact H1
  isplitl [H2]; · iexact H2
  iexact H3

/-! ## After the region: the transpose of the kernel's result -/

/-- The program's result: the kernel's output array [4, 64, 4096] as the region leaves it, its last two axes swapped. -/
def outT (c : Dev nD) : Buf (Elt F) ((c.tc : Thread nD τ).loc main_v1) :=
  transpose S4x4096x64 [0, 2, 1] ((dats m 0 c).arrAt 4 cfg0.N) transposes_S4x64x4096_S4x4096x64_0_2_1

/-- The device's buffers when the region is left, as far as the transpose reads them: the kernel's output array at
    what the write-backs made of it, everything else as launched. -/
def Wt (c : Dev nD) : Valuation τ sig (Elt F) := fun b =>
  if h : Proc.devRef .tc main_v0 = b then
    cast (congrArg (fun b' : DevRef τ sig => b'.ty.Contents (Elt F)) h) ((dats m 0 c).arrAt 4 cfg0.N)
  else m (c, b)

theorem Wt_v0 (c : Dev nD) : Wt m c (Proc.devRef .tc main_v0) = (dats m 0 c).arrAt 4 cfg0.N := by
  unfold Wt; rw [dif_pos rfl]; rfl
theorem Wt_v1 (c : Dev nD) : Wt m c (Proc.devRef .tc main_v1) = V m c main_v1 := by
  unfold Wt; rw [dif_neg (StableHlo.devRef_ne_of_ne (by decide))]

/-- The transpose leaves the kernel's output array as it was, -/
theorem after_v0 (c : Dev nD) :
    StableHlo.after (hostOps1 (F := F)) (Wt m c) (Proc.devRef .tc main_v0) = (dats m 0 c).arrAt 4 cfg0.N := by
  simp only [hostOps1, StableHlo.after_cons, StableHlo.after_nil]
  rw [StableHlo.unary_result_ne main_v0 main_v1 _ _ _ (Wt m c) (r := main_v0) (by decide), Wt_v0]
/-- and writes the program's result. -/
theorem after_v1 (c : Dev nD) :
    StableHlo.after (hostOps1 (F := F)) (Wt m c) (Proc.devRef .tc main_v1) = outT m c := by
  simp only [hostOps1, StableHlo.after_cons, StableHlo.after_nil]
  rw [StableHlo.unary_result main_v0 main_v1 _ _ _ (Wt m c), Wt_v0]; rfl

/-- The two buffers the transpose touches, held whole. -/
theorem held_pair (c : Dev nD) (W : Valuation τ sig (Elt F)) :
    (StableHlo.held (c.tc : Thread nD τ) {Proc.devRef .tc main_v0, Proc.devRef .tc main_v1} W : sProp 𝕄)
      = iprop(((c.tc : Thread nD τ).loc main_v0 ↦{fullShare} W (Proc.devRef .tc main_v0))
          ∗ ((c.tc : Thread nD τ).loc main_v1 ↦{fullShare} W (Proc.devRef .tc main_v1))) := by
  unfold StableHlo.held
  rw [bigSep_insert (by rw [Finset.mem_singleton]; exact StableHlo.devRef_ne_of_ne (by decide)), bigSep_singleton]
  rfl

/-- The line after the region, from the region's exit: holding the kernel's output array whole (an output window's
    array is held at the full share) and the result buffer, the transpose runs and hands both back, the result
    buffer at the transposed array. The two halves of `x` and the other inputs pass by untouched. -/
theorem htail (c : Dev nD) (Q' : PUnit → sProp 𝕄) :
    iprop((iprop((dats m 0 c).arrays ((dats m 0 c).arrAt · cfg0.N) ∗ ((c.tc : Thread nD τ).loc main_v1 ↦{fullShare} outT m c)) -∗ Q' ⟨⟩)
        ∗ boundary (c.tc : Thread nD τ) ∗ (dats m 0 c).arrays ((dats m 0 c).arrAt · cfg0.N)
        ∗ ((c.tc : Thread nD τ).loc main_v1 ↦{fullShare} V m c main_v1))
      ⊢ wp frame (wpE (defs (F := F)) (Variants.lift Variants.none) (c.tc : Thread nD τ) none) Set.univ
          (Pipeline.chain [StableHlo.seq hostOps1]) Q' := by
  rw [arrays_eq]
  have hsub : ∀ op ∈ (hostOps1 : List (HloOp τ sig (Elt F))),
      op.bufs ⊆ ({Proc.devRef .tc main_v0, Proc.devRef .tc main_v1} : Finset (DevRef τ sig)) := by
    intro op hop; rw [List.mem_singleton] at hop; subst hop; exact subset_rfl
  have hfresh : ∀ op ∈ (hostOps1 : List (HloOp τ sig (Elt F))), op.fresh = ∅ := by
    intro op hop; rw [List.mem_singleton] at hop; subst hop; rfl
  have key := StableHlo.wp_seq (defs := defs (F := F)) (Variants.lift Variants.none) none Set.univ c
    ({Proc.devRef .tc main_v0, Proc.devRef .tc main_v1} : Finset (DevRef τ sig))
    (fun _ => Pipeline.chain []) (K := Q') hostOps1 hsub hfresh (Wt m c)
  rw [held_pair, held_pair, after_v0, after_v1, Wt_v0, Wt_v1] at key
  iintro ⟨HQ, Hb, ⟨H0, H1, H2, H3, H4⟩, HZ⟩
  rw [Pipeline.chain_cons]
  iapply key $$ [Hb H4 HZ]
  · isplitl [Hb]; · iexact Hb
    isplitl [H4]; · iexact H4
    iexact HZ
  iintro ⟨Hb, H4, HZ⟩
  rw [Pipeline.chain_nil, show (pure PUnit.unit : Prog (TpuEff nD τ sig (Elt F) _ .tc) PUnit) = .ret ⟨⟩ from rfl, wp_ret]
  imodintro
  iapply HQ
  isplitr [HZ]
  · isplitl [H0]; · iexact H0
    isplitl [H1]; · iexact H1
    isplitl [H2]; · iexact H2
    isplitl [H3]; · iexact H3
    iexact H4
  iexact HZ

/-! ## The run -/

set_option backward.isDefEq.respectTransparency.types false in
/-- From any memory with zero counters every weakly fair execution of @main terminates, faulting nowhere, with every
    array of the pipeline at what the write-backs leave of it (an input array: as launched) and the result buffer at
    the transposed output array. The launch hands the region `x`'s buffer once; the two windows on it get a half
    share each (`hsplit`). -/
theorem run_main : θ_run defs (onTc (τ := τ) (main (F := F))) ⟨m, fun _ => 0, ρ⟩ (fun r => ∀ c : Dev nD,
      (∀ w, r.2.mem ((spec0 w).arr.view.loc (c.tc : Thread nD τ)) = (dats m 0 c).arrAt w cfg0.N)
      ∧ r.2.mem ((c.tc : Thread nD τ).loc main_v1) = outT m c) :=
  Pipeline.θ_run_region_pf_tail (fun p => (cfgs p).toPCfg) (fun p => (cfgs p).toPCfg_adm) (dats m) () cellOf_inj (0 : Fin 1) winFacts₀0
    (Pipeline.OwnSemFacts.none spec0) (Pipeline.PreFacts.none _) emb₁ defs₀ Variants.none m ρ main
    (fun _ => Pipeline.chain [StableHlo.seq hostOps1])
    (fun c => (body_obligation m c).loose) block_pos0 arr_whole0 stage_whole0 (fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := V m) (hmain := hmain m) (hsplit := hsplit m) (hpf := fun _ k => k.elim0)
    (X := fun c => iprop(∃ r, prngReg c r)) (Y := fun c => iprop(∃ r, prngReg c r))
    (Z := fun c => iprop((c.tc : Thread nD τ).loc main_v1 ↦{fullShare} V m c main_v1))
    (Z' := fun c => iprop((c.tc : Thread nD τ).loc main_v1 ↦{fullShare} outT m c))
    (hX := fun c => by
      rw [Pipeline.unscopedRestP_none, unscopedRest0_eq]
      iintro ⟨HU, -, -, -, Hp, -⟩; imodintro
      isplitl [Hp]; · iexists _; iexact Hp
      iexact HU)
    (hin := fun c => by
      show _ ⊢ Pipeline.ΦA spec0 c
      unfold Pipeline.ΦA
      iintro ⟨Hp, -, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (htail := htail m)
    (QY := fun c s => s.mem ((c.tc : Thread nD τ).loc main_v1) = outT m c)
    (hY := fun c s' => by
      iintro ⟨-, HU, HSI⟩
      icombine HSI HU gives %h
      imodintro
      isplitr; · ipureintro; exact Buf.eq_of_forall_mem_univ h
      iexact HSI)
    (hQ := fun s h c => ⟨(h c).1, (h c).2.2⟩)

/-- THE FRAME, at any `F`: @main runs to its end and its three argument arrays end as launched — an input window's
    array is never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans (A_eq m c 0)),
     ((h c).1 2).trans (((dats m 0 c).arrAt_in 2 rfl _).trans (A_eq m c 2)),
     ((h c).1 3).trans (((dats m 0 c).arrAt_in 3 rfl _).trans (A_eq m c 3))⟩) (run_main m ρ)

/-- The run, read for a value claim: the result buffer at the transposed output array, the arguments as launched. -/
theorem run_result : θ_run defs (onTc (τ := τ) (main (F := F))) ⟨m, fun _ => 0, ρ⟩ (fun r => ∀ c : Dev nD,
      r.2.mem ((c.tc : Thread nD τ).loc main_v1) = outT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2,
     ((h c).1 0).trans (((dats m 0 c).arrAt_in 0 rfl _).trans (A_eq m c 0)),
     ((h c).1 2).trans (((dats m 0 c).arrAt_in 2 rfl _).trans (A_eq m c 2)),
     ((h c).1 3).trans (((dats m 0 c).arrAt_in 3 rfl _).trans (A_eq m c 3))⟩) (run_main m ρ)

end Cert.KernelIdeal.Frame

end
-- ==== Proof.KI.Payload.lean ====
/-
  The body's arithmetic at an index, over the extended reals.

  Each of the body's two stores writes `W · xbᵀ + bias` for one row block `xb` [1, 1024, 2048] of the activations:
  the block's leading unit axis dropped, the matrix unit's product of W [64, 2048] with the block contracted over
  the 2048 features into a zero accumulator, the bias [64] turned into a column [64, 1] and repeated along the 1024
  rows' axis, the sum cast back to [1, 64, 1024]. At Ideal the product into a zero accumulator is the plain sum over
  the contracted axis, so the store's value at (0, e, s) is  Σ_k W[e, k] · xb[0, s, k] + b[e].
-/
import proofs.«143645_g40827959116453_cont_8to1_b_939_14_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx

/-! ## Two layout operations read at an index -/

/-- A vector [a] cast to a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] repeated along a second axis to [a, b] reads, at (i, j), the column at (i, 0). -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The matrix unit's product at an index -/

theorem lhs_mm_0 (j : S64x1024.Idx) (q : dot_S64x2048_S1024x2048_S64x1024_1_1_0_0_n_n.contr.Idx) :
    (dot_S64x2048_S1024x2048_S64x1024_1_1_0_0_n_n.lhsIdx j q 0).val = (j 0).val := by
  unfold DotDims.lhsIdx
  rw [dif_neg (show ¬(0 : Fin S64x2048.rank) ∈ dot_S64x2048_S1024x2048_S64x1024_1_1_0_0_n_n.lhsBatch by decide), dif_pos (show (0 : Fin S64x2048.rank) ∈ dot_S64x2048_S1024x2048_S64x1024_1_1_0_0_n_n.lhsNonContracting by decide)]
  rfl
theorem lhs_mm_1 (j : S64x1024.Idx) (q : dot_S64x2048_S1024x2048_S64x1024_1_1_0_0_n_n.contr.Idx) :
    (dot_S64x2048_S1024x2048_S64x1024_1_1_0_0_n_n.lhsIdx j q 1).val = (q ⟨0, by decide⟩).val :=
  dot_S64x2048_S1024x2048_S64x1024_1_1_0_0_n_n.lhsIdx_val_of_single rfl j q
theorem rhs_mm_0 (j : S64x1024.Idx) (q : dot_S64x2048_S1024x2048_S64x1024_1_1_0_0_n_n.contr.Idx) :
    (dot_S64x2048_S1024x2048_S64x1024_1_1_0_0_n_n.rhsIdx j q 0).val = (j 1).val := by
  unfold DotDims.rhsIdx
  rw [dif_neg (show ¬(0 : Fin S1024x2048.rank) ∈ dot_S64x2048_S1024x2048_S64x1024_1_1_0_0_n_n.rhsBatch by decide), dif_pos (show (0 : Fin S1024x2048.rank) ∈ dot_S64x2048_S1024x2048_S64x1024_1_1_0_0_n_n.rhsNonContracting by decide)]
  rfl
theorem rhs_mm_1 (j : S64x1024.Idx) (q : dot_S64x2048_S1024x2048_S64x1024_1_1_0_0_n_n.contr.Idx) :
    (dot_S64x2048_S1024x2048_S64x1024_1_1_0_0_n_n.rhsIdx j q 1).val = (q ⟨0, by decide⟩).val :=
  dot_S64x2048_S1024x2048_S64x1024_1_1_0_0_n_n.rhsIdx_val_of_single rfl j q

/-- W [64, 2048] times a row block [1024, 2048], both contracted on their second axis, into a zero accumulator:
    at (e, s) the sum over the 2048 features of W[e, k] · rows[s, k]. -/
theorem matmul_at (w : FVec Ideal S64x2048 .f32) (r : FVec Ideal S1024x2048 .f32) (e : Fin 64) (s : Fin 1024) :
    matmul dot_S64x2048_S1024x2048_S64x1024_1_1_0_0_n_n none w r (constant (F := Ideal) S64x1024 .f32 0x00000000#32) (ix2 e s)
      = ∑ k : Fin 2048, w (ix2 e k) * r (ix2 s k) := by
  simp only [matmul]
  rw [Ideal.matmul_constant_zero_apply, ← Equiv.sum_comp (ValueIdx.contrEquiv1 dot_S64x2048_S1024x2048_S64x1024_1_1_0_0_n_n 2048 rfl rfl).symm]
  refine Finset.sum_congr rfl fun k _ => ?_
  have hk := ValueIdx.contrEquiv1_symm_val dot_S64x2048_S1024x2048_S64x1024_1_1_0_0_n_n 2048 rfl rfl k
  have el : dot_S64x2048_S1024x2048_S64x1024_1_1_0_0_n_n.lhsIdx (ix2 e s) ((ValueIdx.contrEquiv1 dot_S64x2048_S1024x2048_S64x1024_1_1_0_0_n_n 2048 rfl rfl).symm k) = ix2 e k := funext fun a => Fin.ext (by
    match a with
    | ⟨0, _⟩ => exact lhs_mm_0 _ _
    | ⟨1, _⟩ => exact (lhs_mm_1 _ _).trans hk)
  have er : dot_S64x2048_S1024x2048_S64x1024_1_1_0_0_n_n.rhsIdx (ix2 e s) ((ValueIdx.contrEquiv1 dot_S64x2048_S1024x2048_S64x1024_1_1_0_0_n_n 2048 rfl rfl).symm k) = ix2 s k := funext fun a => Fin.ext (by
    match a with
    | ⟨0, _⟩ => exact rhs_mm_0 _ _
    | ⟨1, _⟩ => exact (rhs_mm_1 _ _).trans hk)
  rw [el, er]

/-! ## A store's value at an index -/

/-- The left half's store at (u, e, s): Σ_k W[e, k] · xb[0, s, k] + b[e]. -/
theorem pay2_at (w : Vec Ideal S64x2048 .f32) (b : Vec Ideal S64 .f32) (xb : Vec Ideal S1x1024x2048 .f32)
    (u : Fin 1) (e : Fin 64) (s : Fin 1024) :
    k0_pay2 (F := Ideal) w b xb (ix3 u e s)
      = (∑ k : Fin 2048, w (ix2 e k) * xb (ix3 (0 : Fin 1) s k)) + b (ix1 e) := by
  unfold k0_pay2 k0_pay1
  rw [shapeCast_ab_1ab_apply, addf_apply, matmul_at, broadcastTo_a1_ab_apply, shapeCast_a_a1_apply]
  simp only [shapeCast_1ab_ab_apply]

/-- The right half's store is the same function of its row block. -/
theorem pay3_eq (w : Vec Ideal S64x2048 .f32) (b : Vec Ideal S64 .f32) (xb : Vec Ideal S1x1024x2048 .f32) :
    k0_pay3 (F := Ideal) w b xb = k0_pay2 (F := Ideal) w b xb := rfl

end Cert.KernelIdeal.Val

end
-- ==== Proof.KI.Value.lean ====
/-
  What the router gate's kernel leaves in its output array, and the program's result, over the extended reals.

  With x [4, 4096, 2048], W [64, 2048], b [64]:  logit i s e = Σ_k W[e, k] · x[i, s, k] + b[e].
  The kernel's output array is [4, 64, 4096] with the experts on the middle axis: out[i, e, s] = logit i s e.
  Grid point t = (i, j) writes back the block out[i, 0:64, 2048 j : 2048 (j + 1)]: its left half from the row block
  x[i, 2048 j : 2048 j + 1024] (window 0), its right half from x[i, 2048 j + 1024 : 2048 (j + 1)] (window 1), W and b
  whole at every point. The eight blocks tile the array, so after the run the array is `gateT` everywhere, and the
  program's result, its last two axes swapped, is logit i s e at (i, s, e).
-/
import proofs.«143645_g40827959116453_cont_8to1_b_939_14_alg».proof.Proof.KI.Launch
import proofs.«143645_g40827959116453_cont_8to1_b_939_14_alg».proof.Proof.KI.Payload

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The function -/

/-- The router logit of batch entry `i`, row `s`, expert `e`. -/
def logit (x : Vec Ideal S4x4096x2048 .f32) (W : Vec Ideal S64x2048 .f32) (b : Vec Ideal S64 .f32)
    (i : Fin 4) (s : Fin 4096) (e : Fin 64) : Elt Ideal .f32 :=
  (∑ k : Fin 2048, W (ix2 e k) * x (ix3 i s k)) + b (ix1 e)

/-- The kernel's output array [4, 64, 4096]: the logits with the experts on the middle axis. -/
def gateT (x : Vec Ideal S4x4096x2048 .f32) (W : Vec Ideal S64x2048 .f32) (b : Vec Ideal S64 .f32) :
    S4x64x4096.Idx → Elt Ideal .f32 := fun z =>
  logit x W b ⟨(z 0).val, (z 0).isLt⟩ ⟨(z 2).val, (z 2).isLt⟩ ⟨(z 1).val, (z 1).isLt⟩

theorem gateT_ix3 (x : Vec Ideal S4x4096x2048 .f32) (W : Vec Ideal S64x2048 .f32) (b : Vec Ideal S64 .f32)
    (i : Fin 4) (e : Fin 64) (s : Fin 4096) : gateT x W b (ix3 i e s) = logit x W b i s e := rfl

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The index maps, decided over the eight grid points -/

/-- With (i, j) the output window's block index on its first and last axes: window 0 is at rows' block 2 j of batch
    entry i, window 1 at 2 j + 1, the weights and the bias at their one block. -/
theorem idx_facts : ∀ t : Fin cfg0.N,
    win0_0.index t (0 : Fin 3) = win0_4.index t (0 : Fin 3) ∧ win0_0.index t (1 : Fin 3) = 2 * win0_4.index t (2 : Fin 3)
    ∧ win0_0.index t (2 : Fin 3) = 0
    ∧ win0_1.index t (0 : Fin 3) = win0_4.index t (0 : Fin 3) ∧ win0_1.index t (1 : Fin 3) = 2 * win0_4.index t (2 : Fin 3) + 1
    ∧ win0_1.index t (2 : Fin 3) = 0
    ∧ win0_2.index t (0 : Fin 2) = 0 ∧ win0_2.index t (1 : Fin 2) = 0 ∧ win0_3.index t (0 : Fin 1) = 0
    ∧ win0_4.index t (0 : Fin 3) ≤ 3 ∧ win0_4.index t (1 : Fin 3) = 0 ∧ win0_4.index t (2 : Fin 3) ≤ 1 :=
  (by decide +kernel : ∀ t : Fin grid0.N, _)

/-- Every block of the output array is some point's. -/
theorem idx_onto : ∀ (q0 : Fin 4) (q2 : Fin 2), ∃ t : Fin cfg0.N, win0_4.index t = ![q0.val, 0, q2.val] :=
  (by decide +kernel : ∀ (q0 : Fin 4) (q2 : Fin 2), ∃ t : Fin grid0.N, win0_4.index t = ![q0.val, 0, q2.val])

/-! ## The input blocks read at an index -/

theorem wBlk_at (c : Dev nD) (t : Fin cfg0.N) (e : Fin 64) (k : Fin 2048) :
    (iblk m c 2 t : Vec Ideal S64x2048 .f32) (ix2 e k) = V m c main_arg1 (ix2 e k) := by
  obtain ⟨-, -, -, -, -, -, h20, h21, -⟩ := idx_facts t
  show V m c main_arg1 (((cfg0.win 2).blk t).view.emb (ix2 e k)) = V m c main_arg1 (ix2 e k)
  refine congrArg _ (funext fun a => Fin.ext ?_)
  match a with
  | ⟨0, _⟩ => show win0_2.index t (0 : Fin 2) * 64 + 1 * e.val = e.val; omega
  | ⟨1, _⟩ => show win0_2.index t (1 : Fin 2) * 2048 + 1 * k.val = k.val; omega

theorem bBlk_at (c : Dev nD) (t : Fin cfg0.N) (e : Fin 64) :
    (iblk m c 3 t : Vec Ideal S64 .f32) (ix1 e) = V m c main_arg2 (ix1 e) := by
  obtain ⟨-, -, -, -, -, -, -, -, h30, -⟩ := idx_facts t
  show V m c main_arg2 (((cfg0.win 3).blk t).view.emb (ix1 e)) = V m c main_arg2 (ix1 e)
  refine congrArg _ (funext fun a => Fin.ext ?_)
  match a with
  | ⟨0, _⟩ => show win0_3.index t (0 : Fin 1) * 64 + 1 * e.val = e.val; omega

/-- Window 0's block: rows [2048 j, 2048 j + 1024) of batch entry i. -/
theorem xBlk0_at (c : Dev nD) (t : Fin cfg0.N) (u : Fin 1) (s : Fin 1024) (k : Fin 2048) (i : Fin 4) (r : Fin 4096)
    (hi : i.val = win0_4.index t (0 : Fin 3)) (hr : r.val = 2048 * win0_4.index t (2 : Fin 3) + s.val) :
    (iblk m c 0 t : Vec Ideal S1x1024x2048 .f32) (ix3 u s k) = V m c main_arg0 (ix3 i r k) := by
  obtain ⟨h00, h01, h02, -⟩ := idx_facts t
  have hu : u.val = 0 := by omega
  show V m c main_arg0 (((cfg0.win 0).blk t).view.emb (ix3 u s k)) = V m c main_arg0 (ix3 i r k)
  refine congrArg _ (funext fun a => Fin.ext ?_)
  match a with
  | ⟨0, _⟩ => show win0_0.index t (0 : Fin 3) * 1 + 1 * u.val = i.val; omega
  | ⟨1, _⟩ => show win0_0.index t (1 : Fin 3) * 1024 + 1 * s.val = r.val; omega
  | ⟨2, _⟩ => show win0_0.index t (2 : Fin 3) * 2048 + 1 * k.val = k.val; omega

/-- Window 1's block: rows [2048 j + 1024, 2048 (j + 1)) of batch entry i. -/
theorem xBlk1_at (c : Dev nD) (t : Fin cfg0.N) (u : Fin 1) (s : Fin 1024) (k : Fin 2048) (i : Fin 4) (r : Fin 4096)
    (hi : i.val = win0_4.index t (0 : Fin 3)) (hr : r.val = 2048 * win0_4.index t (2 : Fin 3) + 1024 + s.val) :
    (iblk m c 1 t : Vec Ideal S1x1024x2048 .f32) (ix3 u s k) = V m c main_arg0 (ix3 i r k) := by
  obtain ⟨-, -, -, h10, h11, h12, -⟩ := idx_facts t
  have hu : u.val = 0 := by omega
  show V m c main_arg0 (((cfg0.win 1).blk t).view.emb (ix3 u s k)) = V m c main_arg0 (ix3 i r k)
  refine congrArg _ (funext fun a => Fin.ext ?_)
  match a with
  | ⟨0, _⟩ => show win0_1.index t (0 : Fin 3) * 1 + 1 * u.val = i.val; omega
  | ⟨1, _⟩ => show win0_1.index t (1 : Fin 3) * 1024 + 1 * s.val = r.val; omega
  | ⟨2, _⟩ => show win0_1.index t (2 : Fin 3) * 2048 + 1 * k.val = k.val; omega

/-! ## Where the two halves of the output block lie in the array -/

theorem lo_emb (t : Fin cfg0.N) (u : Fin 1) (e : Fin 64) (s : Fin 1024) (i : Fin 4) (r : Fin 4096)
    (hi : i.val = win0_4.index t (0 : Fin 3)) (hr : r.val = 2048 * win0_4.index t (2 : Fin 3) + s.val) :
    ((cfg0.win 4).blk t).view.emb (rLo.emb (ix3 u e s)) = ix3 i e r := by
  obtain ⟨-, -, -, -, -, -, -, -, -, h40, h41, h42⟩ := idx_facts t
  have hu : u.val = 0 := by omega
  funext a; apply Fin.ext
  match a with
  | ⟨0, _⟩ => show win0_4.index t (0 : Fin 3) * 1 + 1 * (0 + 1 * u.val) = i.val; omega
  | ⟨1, _⟩ => show win0_4.index t (1 : Fin 3) * 64 + 1 * (0 + 1 * e.val) = e.val; omega
  | ⟨2, _⟩ => show win0_4.index t (2 : Fin 3) * 2048 + 1 * (0 + 1 * s.val) = r.val; omega

theorem hi_emb (t : Fin cfg0.N) (u : Fin 1) (e : Fin 64) (s : Fin 1024) (i : Fin 4) (r : Fin 4096)
    (hi : i.val = win0_4.index t (0 : Fin 3)) (hr : r.val = 2048 * win0_4.index t (2 : Fin 3) + 1024 + s.val) :
    ((cfg0.win 4).blk t).view.emb (rHi.emb (ix3 u e s)) = ix3 i e r := by
  obtain ⟨-, -, -, -, -, -, -, -, -, h40, h41, h42⟩ := idx_facts t
  have hu : u.val = 0 := by omega
  funext a; apply Fin.ext
  match a with
  | ⟨0, _⟩ => show win0_4.index t (0 : Fin 3) * 1 + 1 * (0 + 1 * u.val) = i.val; omega
  | ⟨1, _⟩ => show win0_4.index t (1 : Fin 3) * 64 + 1 * (0 + 1 * e.val) = e.val; omega
  | ⟨2, _⟩ => show win0_4.index t (2 : Fin 3) * 2048 + 1 * (1024 + 1 * s.val) = r.val; omega

/-! ## Each half's store is the array's function on its part of the block -/

/-- A store's value from a row block that holds rows [r₀, r₀ + 1024) of batch entry i is the logit of those rows. -/
theorem pay_logit (w : Vec Ideal S64x2048 .f32) (b : Vec Ideal S64 .f32) (xb : Vec Ideal S1x1024x2048 .f32)
    (X : Vec Ideal S4x4096x2048 .f32) (W : Vec Ideal S64x2048 .f32) (B : Vec Ideal S64 .f32)
    (u : Fin 1) (e : Fin 64) (s : Fin 1024) (i : Fin 4) (r : Fin 4096)
    (hw : ∀ k, w (ix2 e k) = W (ix2 e k)) (hb : b (ix1 e) = B (ix1 e))
    (hx : ∀ k, xb (ix3 (0 : Fin 1) s k) = X (ix3 i r k)) :
    k0_pay2 (F := Ideal) w b xb (ix3 u e s) = logit X W B i r e := by
  rw [pay2_at]
  unfold logit
  rw [hb]
  exact congrArg (· + B (ix1 e)) (Finset.sum_congr rfl fun k _ => by rw [hw k, hx k])

/-- The right half's store, at every index of the half, is `gateT` at the array index the half's place in the block
    and the block's place in the array give it. -/
theorem hi_piece (c : Dev nD) (t : Fin cfg0.N) (x : S1x64x1024.Idx) :
    k0_pay3 (F := Ideal) (View.ld (iblk m c 2 t) rW) (View.ld (iblk m c 3 t) rB) (View.ld (iblk m c 1 t) rX) x
      = gateT (V m c main_arg0) (V m c main_arg1) (V m c main_arg2) (((cfg0.win 4).blk t).view.emb (rHi.emb x)) := by
  obtain ⟨u, e, s, rfl⟩ : ∃ (u : Fin 1) (e : Fin 64) (s : Fin 1024), x = ix3 u e s := ⟨x 0, x 1, x 2, eq_ix3 x⟩
  obtain ⟨-, -, -, -, -, -, -, -, -, h40, h41, h42⟩ := idx_facts t
  have hs := s.isLt
  rw [pay3_eq, hi_emb t u e s ⟨win0_4.index t (0 : Fin 3), by omega⟩ ⟨2048 * win0_4.index t (2 : Fin 3) + 1024 + s.val, by omega⟩ rfl rfl,
    gateT_ix3]
  exact pay_logit _ _ _ _ _ _ u e s _ _
    (fun k => (congrFun (View.ld_unit_zero (S := S64x2048) hz2 _ _) _).trans (wBlk_at m c t e k))
    ((congrFun (View.ld_unit_zero (S := S64) hz1 _ _) _).trans (bBlk_at m c t e))
    (fun k => (congrFun (View.ld_unit_zero (S := S1x1024x2048) hz3 _ _) _).trans (xBlk1_at m c t 0 s k _ _ rfl rfl))

/-- The same for the left half. -/
theorem lo_piece (c : Dev nD) (t : Fin cfg0.N) (x : S1x64x1024.Idx) :
    k0_pay2 (F := Ideal) (View.ld (iblk m c 2 t) rW) (View.ld (iblk m c 3 t) rB) (View.ld (iblk m c 0 t) rX) x
      = gateT (V m c main_arg0) (V m c main_arg1) (V m c main_arg2) (((cfg0.win 4).blk t).view.emb (rLo.emb x)) := by
  obtain ⟨u, e, s, rfl⟩ : ∃ (u : Fin 1) (e : Fin 64) (s : Fin 1024), x = ix3 u e s := ⟨x 0, x 1, x 2, eq_ix3 x⟩
  obtain ⟨-, -, -, -, -, -, -, -, -, h40, h41, h42⟩ := idx_facts t
  have hs := s.isLt
  rw [lo_emb t u e s ⟨win0_4.index t (0 : Fin 3), by omega⟩ ⟨2048 * win0_4.index t (2 : Fin 3) + s.val, by omega⟩ rfl rfl,
    gateT_ix3]
  exact pay_logit _ _ _ _ _ _ u e s _ _
    (fun k => (congrFun (View.ld_unit_zero (S := S64x2048) hz2 _ _) _).trans (wBlk_at m c t e k))
    ((congrFun (View.ld_unit_zero (S := S64) hz1 _ _) _).trans (bBlk_at m c t e))
    (fun k => (congrFun (View.ld_unit_zero (S := S1x1024x2048) hz3 _ _) _).trans (xBlk0_at m c t 0 s k _ _ rfl rfl))

/-! ## What a point writes back, the cover, and the array after the run -/

/-- WHAT POINT `t` WRITES BACK is block `t` of `gateT` of the argument arrays: both halves of the block agree with
    that one function, and between them they cover the block. -/
theorem flushed_eq (c : Dev nD) (t : Fin cfg0.N) :
    (dats m 0 c).flushed 4 t
      = ((cfg0.win 4).blk t).view.read (Elt Ideal) (gateT (V m c main_arg0) (V m c main_arg1) (V m c main_arg2)) := by
  show (cfg0.win 4).cut (grid0.coords t) ((dats m 0 c).after 4 t) = _
  rw [after_4]
  funext y
  show outBlk (iblk m c 0 t) (iblk m c 1 t) (iblk m c 2 t) (iblk m c 3 t) y
    = gateT (V m c main_arg0) (V m c main_arg1) (V m c main_arg2) (((cfg0.win 4).blk t).view.emb y)
  unfold outBlk
  refine View.canon_apply_of_pieces
    (fun y => gateT (V m c main_arg0) (V m c main_arg1) (V m c main_arg2) (((cfg0.win 4).blk t).view.emb y)) _ ?_ y (cover_out _ _ y)
  intro p hp x
  rcases List.mem_cons.mp hp with rfl | hp
  · exact hi_piece m c t x
  · obtain rfl := List.mem_singleton.mp hp
    exact lo_piece m c t x

/-- An index of the output array is in point `t`'s block iff each coordinate is in the block's range on its axis. -/
theorem mem_blk (t : Fin cfg0.N) (z : S4x64x4096.Idx) :
    z ∈ ((cfg0.win 4).blk t).view.set ↔ ∀ a : Fin 3, win0_4.index t a * S1x64x2048.size a ≤ (z a).val
      ∧ (z a).val < win0_4.index t a * S1x64x2048.size a + S1x64x2048.size a := by
  show z ∈ ((View.whole main_v0).slice (win0_4.rect t)).set ↔ _
  rw [View.set_slice_whole, Rect.mem_set_unit]
  exact Iff.rfl

/-- Every index of the output array is in some point's block: (i, e, s) in the block of the point (i, s / 2048). -/
theorem cover (z : S4x64x4096.Idx) :
    ∃ t : Fin cfg0.N, (cfg0.win 4).flush t = true ∧ z ∈ ((cfg0.win 4).blk t).view.set := by
  have h0 : (z 0).val < 4 := (z 0).isLt
  have h1 : (z 1).val < 64 := (z 1).isLt
  have h2 : (z 2).val < 4096 := (z 2).isLt
  obtain ⟨t, ht⟩ := idx_onto ⟨(z 0).val, h0⟩ ⟨(z 2).val / 2048, by omega⟩
  have q0 : win0_4.index t (0 : Fin 3) = (z 0).val := congrFun ht 0
  have q1 : win0_4.index t (1 : Fin 3) = 0 := congrFun ht 1
  have q2 : win0_4.index t (2 : Fin 3) = (z 2).val / 2048 := congrFun ht 2
  refine ⟨t, flush0_4 t, ?_⟩
  rw [mem_blk]
  intro a
  match a with
  | ⟨0, _⟩ => show win0_4.index t (0 : Fin 3) * 1 ≤ (z 0).val ∧ (z 0).val < win0_4.index t (0 : Fin 3) * 1 + 1; omega
  | ⟨1, _⟩ => show win0_4.index t (1 : Fin 3) * 64 ≤ (z 1).val ∧ (z 1).val < win0_4.index t (1 : Fin 3) * 64 + 64; omega
  | ⟨2, _⟩ => show win0_4.index t (2 : Fin 3) * 2048 ≤ (z 2).val ∧ (z 2).val < win0_4.index t (2 : Fin 3) * 2048 + 2048; omega

/-- THE OUTPUT ARRAY after the run: the logits, experts on the middle axis. -/
theorem final (c : Dev nD) :
    (dats m 0 c).arrAt 4 cfg0.N = gateT (V m c main_arg0) (V m c main_arg1) (V m c main_arg2) :=
  (dats m 0 c).arrAt_eq_of_cover 4 _ (fun t _ => flushed_eq m c t) cover

/-- THE PROGRAM'S RESULT at (i, s, e): the logit of batch entry i, row s, expert e. -/
theorem outT_apply (c : Dev nD) (i : Fin 4) (s : Fin 4096) (e : Fin 64) :
    outT m c (ix3 i s e) = logit (V m c main_arg0) (V m c main_arg1) (V m c main_arg2) i s e := by
  unfold outT
  rw [final]
  exact (transpose_ix3_021_apply _ _ i s e).trans (gateT_ix3 _ _ _ i e s)

end Cert.KernelIdeal.Val

end
-- ==== Proof.Bridge.lean ====
/-
  The router gate's kernel against its reference, over the extended reals.

  The reference computes, at (i, s, e), Σ_k x[i, s, k] · W[e, k] + b[e] (an einsum 'bsd,ed->bse' then the bias along
  the last axis); the kernel program's result is Σ_k W[e, k] · x[i, s, k] + b[e] there (KI/Value.lean). The two sums
  differ only in the order of each product's factors: multiplication of extended reals is commutative, so nothing
  about the inputs' finiteness is used.
-/
import proofs.«143645_g40827959116453_cont_8to1_b_939_14_alg».proof.Proof.KI.Value
import proofs.«143645_g40827959116453_cont_8to1_b_939_14_alg».proof.Proof.Gen.ReferenceIdeal.Read

noncomputable section

namespace Cert.Bridge

open Idealize.ShloMosaic Idealize.ShloMosaic.TcCoe Idealize.ShloMosaic.ValueIdx Idealize.SL.Sem
open Cert.ReferenceIdeal.Read

/-- The reference's result at (i, s, e). -/
theorem ref_apply (x : (⟨Cert.ReferenceIdeal.S4x4096x2048, .f32⟩ : BufTy).Contents (Elt Ideal))
    (W : (⟨Cert.ReferenceIdeal.S64x2048, .f32⟩ : BufTy).Contents (Elt Ideal))
    (b : (⟨Cert.ReferenceIdeal.S64, .f32⟩ : BufTy).Contents (Elt Ideal)) (i : Fin 4) (s : Fin 4096) (e : Fin 64) :
    val_main_v3 (F := Ideal) x W b (ix3 i s e) = (∑ k : Fin 2048, x (ix3 i s k) * W (ix2 e k)) + b (ix1 e) := by
  rw [val_main_v3_apply, val_main_v0_apply, val_main_v2_apply, val_main_v1_apply]
  have el : ∀ k : Fin 2048, lidx_main_v0 (ix3 i s e) k = ix3 i s k := fun k =>
    funext fun a => Fin.ext (by match a with | ⟨0, _⟩ => rfl | ⟨1, _⟩ => rfl | ⟨2, _⟩ => rfl)
  have er : ∀ k : Fin 2048, ridx_main_v0 (ix3 i s e) k = ix2 e k := fun k =>
    funext fun a => Fin.ext (by match a with | ⟨0, _⟩ => rfl | ⟨1, _⟩ => rfl)
  have eb : idx_main_v1 (idx_main_v2 (ix3 i s e)) = ix1 e :=
    funext fun a => Fin.ext (by match a with | ⟨0, _⟩ => rfl)
  simp only [el, er, eb]
  rfl

/-- THE TWO PROGRAMS' RESULTS ARE ONE ARRAY: at every index both are the logit there, the products' factors swapped. -/
theorem result_eq (m : (ℓ : Loc Cert.KernelIdeal.nD Cert.KernelIdeal.τ Cert.KernelIdeal.sig) → Buf (Elt Ideal) ℓ)
    (c : Dev Cert.KernelIdeal.nD) :
    val_main_v3 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = Cert.KernelIdeal.Frame.outT m c := by
  funext j
  obtain ⟨i, s, e, rfl⟩ : ∃ (i : Fin 4) (s : Fin 4096) (e : Fin 64), j = ix3 i s e := ⟨j 0, j 1, j 2, eq_ix3 j⟩
  rw [ref_apply]
  refine Eq.trans ?_ (Cert.KernelIdeal.Val.outT_apply m c i s e).symm
  unfold Cert.KernelIdeal.Val.logit
  exact congrArg (· + _) (Finset.sum_congr rfl fun k _ => mul_comm _ _)

end Cert.Bridge

end
-- ==== Proof.lean ====
/-
  The router gate  logits = x · Wᵀ + b  (x [4, 4096, 2048], W [64, 2048], b [64]) as a Pallas kernel, against
  jnp's einsum 'bsd,ed->bse' plus the bias.

  The kernel streams x in row blocks of 1024 through a grid of 4 × 2 points, two blocks per point (the same array
  through two windows), keeps W and b resident, writes the logits with the experts on the middle axis
  ([4, 64, 4096]: out[i, e, s] = Σ_k W[e, k] · x[i, s, k] + b[e]) and transposes the last two axes on the host.
  The reference computes Σ_k x[i, s, k] · W[e, k] + b[e] at (i, s, e). Over the extended reals the two are the same
  number: each product's factors are swapped and nothing else differs, so no finiteness of the inputs is needed.

  The frames of the two kernel programs are one argument at any value family (Proof/KI and its word-level copy
  Proof/K): the body's triple on symbolic staging buffers, the proof data with x's share dealt in halves to the two
  windows that read it, and the launch with the transpose after the region. The reference's frame is its run with the
  result dropped. The ideal pass rewrote nothing, so `preserves` has nothing to state.
-/
import proofs.«143645_g40827959116453_cont_8to1_b_939_14_alg».proof.Defs
import proofs.«143645_g40827959116453_cont_8to1_b_939_14_alg».proof.Proof.Gen.Kernel
import proofs.«143645_g40827959116453_cont_8to1_b_939_14_alg».proof.Proof.Gen.KernelIdeal
import proofs.«143645_g40827959116453_cont_8to1_b_939_14_alg».proof.Proof.Gen.ReferenceIdeal
import proofs.«143645_g40827959116453_cont_8to1_b_939_14_alg».proof.Proof.Gen.Pre_finite_inputs
import proofs.«143645_g40827959116453_cont_8to1_b_939_14_alg».proof.Proof.K.Launch
import proofs.«143645_g40827959116453_cont_8to1_b_939_14_alg».proof.Proof.KI.Launch
import proofs.«143645_g40827959116453_cont_8to1_b_939_14_alg».proof.Proof.Bridge

noncomputable section

namespace Cert.Proof

open Idealize.ShloMosaic Idealize.SL.Sem

/-- The word-level kernel program runs to its end and leaves x, W, b as launched. -/
theorem frame_kernel : Cert.frame_Kernel := fun m ρ _ => Cert.Kernel.Frame.frame m ρ

/-- So does its idealization. -/
theorem frame_kernelIdeal : Cert.frame_KernelIdeal := fun m ρ _ => Cert.KernelIdeal.Frame.frame m ρ

/-- The reference is four host operations; its run, with the result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the logits: the kernel program's result buffer at the transposed output array,
    the reference's at its composed term, and the two are one array (`Bridge.result_eq`). -/
theorem algebraic : Cert.algebraic_KernelIdeal_ReferenceIdeal := by
  intro m ρ m' ρ' _ hagree
  refine ⟨fun c => Cert.KernelIdeal.Frame.outT m c, Cert.KernelIdeal.Frame.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, (hagree c).1, (hagree c).2.1, (hagree c).2.2]
  exact Cert.Bridge.result_eq m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
